-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x50000x96 : Shape := ⟨3, ![8, 50000, 96]⟩
abbrev S50000x64 : Shape := ⟨2, ![50000, 64]⟩
abbrev S64x96 : Shape := ⟨2, ![64, 96]⟩
abbrev S64 : Shape := ⟨1, ![64]⟩
abbrev S64x64 : Shape := ⟨2, ![64, 64]⟩
abbrev S2x800000 : Shape := ⟨2, ![2, 800000]⟩
abbrev S_ : Shape := ⟨0, ![]⟩

class Facts : Prop where
  bcast_S_S8x50000x96 : S_.BroadcastsInDim S8x50000x96 (![] : Fin 0 → Fin S8x50000x96.rank)
  reducesTo_S8x50000x96_S_d0_1_2 : S8x50000x96.ReducesTo [0, 1, 2] S_
  h_S_ : 0 < S_.numel
  bcast_S_S50000x64 : S_.BroadcastsInDim S50000x64 (![] : Fin 0 → Fin S50000x64.rank)
  reducesTo_S50000x64_S_d0_1 : S50000x64.ReducesTo [0, 1] S_
  bcast_S_S64x96 : S_.BroadcastsInDim S64x96 (![] : Fin 0 → Fin S64x96.rank)
  reducesTo_S64x96_S_d0_1 : S64x96.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg4 : FVec F S64 .f32) (main_arg5 : FVec F S64x64 .f32) (main_arg6 : FVec F S64 .f32) (main_v13 : IVec S_ 1) (main_v16 : IVec S64x96 1) : IVec S_ 1 :=
  let main_c_5 : IVec S_ 1 := constantI S_ 1 1#1
  let main_v17 : IVec S_ 1 := (fun x v => Host.reduce IntOp.andi x v reducesTo_S64x96_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S8x50000x96 .f32) (main_arg1 : FVec F S50000x64 .f32) (main_arg2 : FVec F S50000x64 .f32) (main_arg3 : FVec F S64x96 .f32) (main_arg4 : FVec F S64 .f32) (main_arg5 : FVec F S64x64 .f32) (main_arg6 : FVec F S64 .f32) (main_arg7 : IVec S2x800000 32) : IVec S_ 1 :=
  let main_v0 : FVec F S8x50000x96 .f32 := Host.absf main_arg0
  let main_cst : FVec F S_ .f32 := constant S_ .f32 0x7F800000#32
  let main_v1 : FVec F S8x50000x96 .f32 := broadcastInDim S8x50000x96 ![] bcast_S_S8x50000x96 main_cst
  let main_v2 : IVec S8x50000x96 1 := cmpf .olt main_v0 main_v1
  let main_c : IVec S_ 1 := constantI S_ 1 1#1
  let main_v3 : IVec S_ 1 := (fun x v => Host.reduce IntOp.andi x v reducesTo_S8x50000x96_S_d0_1_2 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S50000x64 .f32 := Host.absf main_arg2
  let main_cst_2 : FVec F S_ .f32 := constant S_ .f32 0x7F800000#32
  let main_v10 : FVec F S50000x64 .f32 := broadcastInDim S50000x64 ![] bcast_S_S50000x64 main_cst_2
  let main_v11 : IVec S50000x64 1 := cmpf .olt main_v9 main_v10
  let main_c_3 : IVec S_ 1 := constantI S_ 1 1#1
  let main_v12 : IVec S_ 1 := (fun x v => Host.reduce IntOp.andi x v reducesTo_S50000x64_S_d0_1 h_S_) main_v11 main_c_3
  let main_v13 : IVec S_ 1 := andi main_v8 main_v12
  let main_v14 : FVec F S64x96 .f32 := Host.absf main_arg3
  let main_cst_4 : FVec F S_ .f32 := constant S_ .f32 0x7F800000#32
  let main_v15 : FVec F S64x96 .f32 := broadcastInDim S64x96 ![] bcast_S_S64x96 main_cst_4
  let main_v16 : IVec S64x96 1 := cmpf .olt main_v14 main_v15
  fn_part1 (F := F) main_arg4 main_arg5 main_arg6 main_v13 main_v16
-- ==== Kernel.lean ====
abbrev S8x50000x96 : Shape := ⟨3, ![8, 50000, 96]⟩
abbrev S50000x64 : Shape := ⟨2, ![50000, 64]⟩
abbrev S64x96 : Shape := ⟨2, ![64, 96]⟩
abbrev S64 : Shape := ⟨1, ![64]⟩
abbrev S64x64 : Shape := ⟨2, ![64, 64]⟩
abbrev S2x800000 : Shape := ⟨2, ![2, 800000]⟩
abbrev S50000 : Shape := ⟨1, ![50000]⟩
abbrev S1x50000 : Shape := ⟨2, ![1, 50000]⟩
abbrev S2x50000 : Shape := ⟨2, ![2, 50000]⟩
abbrev S2x850000 : Shape := ⟨2, ![2, 850000]⟩
abbrev S1x850000 : Shape := ⟨2, ![1, 850000]⟩
abbrev S850000 : Shape := ⟨1, ![850000]⟩
abbrev S_ : Shape := ⟨0, ![]⟩
abbrev S850000x1 : Shape := ⟨2, ![850000, 1]⟩
abbrev S850000x64 : Shape := ⟨2, ![850000, 64]⟩
abbrev S1x64 : Shape := ⟨2, ![1, 64]⟩
abbrev S8x50000x128 : Shape := ⟨3, ![8, 50000, 128]⟩
abbrev S1x5000x96 : Shape := ⟨3, ![1, 5000, 96]⟩
abbrev S5000x64 : Shape := ⟨2, ![5000, 64]⟩
abbrev S1x5000x128 : Shape := ⟨3, ![1, 5000, 128]⟩
abbrev S5000x96 : Shape := ⟨2, ![5000, 96]⟩
abbrev S96x64 : Shape := ⟨2, ![96, 64]⟩
abbrev S5000x128 : Shape := ⟨2, ![5000, 128]⟩

abbrev nBuf : Space → Nat
  | .hbm => 73
  | .vmem => 10
  | .smem => 0
  | _ => 0

abbrev bufTy : (tb : Table) → Fin (tcTables nBuf tb) → BufTy
  | .hbm, ⟨0, _⟩ => ⟨S8x50000x96, .f32⟩
  | .hbm, ⟨1, _⟩ => ⟨S50000x64, .f32⟩
  | .hbm, ⟨2, _⟩ => ⟨S50000x64, .f32⟩
  | .hbm, ⟨3, _⟩ => ⟨S64x96, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S2x800000, .i32⟩
  | .hbm, ⟨8, _⟩ => ⟨S50000, .i32⟩
  | .hbm, ⟨9, _⟩ => ⟨S1x50000, .i32⟩
  | .hbm, ⟨10, _⟩ => ⟨S1x50000, .i32⟩
  | .hbm, ⟨11, _⟩ => ⟨S2x50000, .i32⟩
  | .hbm, ⟨12, _⟩ => ⟨S2x850000, .i32⟩
  | .hbm, ⟨13, _⟩ => ⟨S1x850000, .i32⟩
  | .hbm, ⟨14, _⟩ => ⟨S850000, .i32⟩
  | .hbm, ⟨15, _⟩ => ⟨S1x850000, .i32⟩
  | .hbm, ⟨16, _⟩ => ⟨S850000, .i32⟩
  | .hbm, ⟨17, _⟩ => ⟨S_, .f32⟩
  | .hbm, ⟨18, _⟩ => ⟨S850000, .f32⟩
  | .hbm, ⟨19, _⟩ => ⟨S_, .f32⟩
  | .hbm, ⟨20, _⟩ => ⟨S50000, .f32⟩
  | .hbm, ⟨21, _⟩ => ⟨S850000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .i1⟩
  | .hbm, ⟨26, _⟩ => ⟨S50000, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S_, .i32⟩
  | .hbm, ⟨32, _⟩ => ⟨S850000, .i32⟩
  | .hbm, ⟨33, _⟩ => ⟨S850000, .i1⟩
  | .hbm, ⟨34, _⟩ => ⟨S_, .i32⟩
  | .hbm, ⟨35, _⟩ => ⟨S850000, .i32⟩
  | .hbm, ⟨36, _⟩ => ⟨S850000, .i32⟩
  | .hbm, ⟨37, _⟩ => ⟨S850000, .i32⟩
  | .hbm, ⟨38, _⟩ => ⟨S850000x1, .i32⟩
  | .hbm, ⟨39, _⟩ => ⟨S850000, .f32⟩
  | .hbm, ⟨40, _⟩ => ⟨S_, .i32⟩
  | .hbm, ⟨41, _⟩ => ⟨S850000, .i32⟩
  | .hbm, ⟨42, _⟩ => ⟨S850000, .i1⟩
  | .hbm, ⟨43, _⟩ => ⟨S_, .i32⟩
  | .hbm, ⟨44, _⟩ => ⟨S850000, .i32⟩
  | .hbm, ⟨45, _⟩ => ⟨S850000, .i32⟩
  | .hbm, ⟨46, _⟩ => ⟨S850000, .i32⟩
  | .hbm, ⟨47, _⟩ => ⟨S850000x1, .i32⟩
  | .hbm, ⟨48, _⟩ => ⟨S850000, .f32⟩
  | .hbm, ⟨49, _⟩ => ⟨S850000, .f32⟩
  | .hbm, ⟨50, _⟩ => ⟨S64x64, .f32⟩
  | .hbm, ⟨51, _⟩ => ⟨S50000x64, .f32⟩
  | .hbm, ⟨52, _⟩ => ⟨S850000x1, .f32⟩
  | .hbm, ⟨53, _⟩ => ⟨S_, .i32⟩
  | .hbm, ⟨54, _⟩ => ⟨S850000, .i32⟩
  | .hbm, ⟨55, _⟩ => ⟨S850000, .i1⟩
  | .hbm, ⟨56, _⟩ => ⟨S_, .i32⟩
  | .hbm, ⟨57, _⟩ => ⟨S850000, .i32⟩
  | .hbm, ⟨58, _⟩ => ⟨S850000, .i32⟩
  | .hbm, ⟨59, _⟩ => ⟨S850000, .i32⟩
  | .hbm, ⟨60, _⟩ => ⟨S850000x1, .i32⟩
  | .hbm, ⟨61, _⟩ => ⟨S850000x64, .f32⟩
  | .hbm, ⟨62, _⟩ => ⟨S850000x64, .f32⟩
  | .hbm, ⟨63, _⟩ => ⟨S850000x64, .f32⟩
  | .hbm, ⟨64, _⟩ => ⟨S_, .f32⟩
  | .hbm, ⟨65, _⟩ => ⟨S50000x64, .f32⟩
  | .hbm, ⟨66, _⟩ => ⟨S850000x1, .i32⟩
  | .hbm, ⟨67, _⟩ => ⟨S50000x64, .f32⟩
  | .hbm, ⟨68, _⟩ => ⟨S1x64, .f32⟩
  | .hbm, ⟨69, _⟩ => ⟨S50000x64, .f32⟩
  | .hbm, ⟨70, _⟩ => ⟨S50000x64, .f32⟩
  | .hbm, ⟨71, _⟩ => ⟨S1x64, .f32⟩
  | .hbm, ⟨72, _⟩ => ⟨S8x50000x128, .f32⟩
  | .local _ .vmem, ⟨0, _⟩ => ⟨S1x5000x96, .f32⟩
  | .local _ .vmem, ⟨1, _⟩ => ⟨S1x5000x96, .f32⟩
  | .local _ .vmem, ⟨2, _⟩ => ⟨S5000x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S64x96, .f32⟩
  | .local _ .vmem, ⟨7, _⟩ => ⟨S1x64, .f32⟩
  | .local _ .vmem, ⟨8, _⟩ => ⟨S1x5000x128, .f32⟩
  | .local _ .vmem, ⟨9, _⟩ => ⟨S1x5000x128, .f32⟩
  | _, _ => ⟨S8x50000x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v16 : Ref sig .tc := ⟨.hbm, 30, rfl⟩
abbrev main_c : Ref sig .tc := ⟨.hbm, 31, rfl⟩
abbrev main_v17 : Ref sig .tc := ⟨.hbm, 32, rfl⟩
abbrev main_v18 : Ref sig .tc := ⟨.hbm, 33, rfl⟩
abbrev main_c_3 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_4 : Ref sig .tc := ⟨.hbm, 40, rfl⟩
abbrev main_v24 : Ref sig .tc := ⟨.hbm, 41, rfl⟩
abbrev main_v25 : Ref sig .tc := ⟨.hbm, 42, rfl⟩
abbrev main_c_5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_6 : Ref sig .tc := ⟨.hbm, 53, rfl⟩
abbrev main_v35 : Ref sig .tc := ⟨.hbm, 54, rfl⟩
abbrev main_v36 : Ref sig .tc := ⟨.hbm, 55, rfl⟩
abbrev main_c_7 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_8 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 10], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x5000x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S64x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  bcast_S50000_S1x50000_1 : S50000.BroadcastsInDim S1x50000 (![1] : Fin 1 → Fin S1x50000.rank)
  concatenates_S1x50000_S1x50000_S2x50000_d0 : Shape.Concatenates [S1x50000, S1x50000] S2x50000 0
  concatenates_S2x800000_S2x50000_S2x850000_d1 : Shape.Concatenates [S2x800000, S2x50000] S2x850000 1
  slices_S2x850000_S1x850000_0_0 : S2x850000.Slices ![0, 0] S1x850000
  shapeCasts_S1x850000_S850000 : S1x850000.ShapeCasts S850000
  slices_S2x850000_S1x850000_1_0 : S2x850000.Slices ![1, 0] S1x850000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  transposes_S64x64_S64x64_1_0 : S64x64.Transposes [1, 0] S64x64
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  shapeCasts_S64_S1x64 : S64.ShapeCasts S1x64
  inb_S1x5000x96_S1x5000x96_0_0_0 : ∀ a, (![0, 0, 0] : Fin 3 → Nat) a + S1x5000x96.size a ≤ S1x5000x96.size a
  h_S1x5000x96 : 0 < S1x5000x96.numel
  shapeCasts_S1x5000x96_S5000x96 : S1x5000x96.ShapeCasts S5000x96
  bitsLt_bf16_f32 : FTy.bits .bf16 < FTy.bits .f32
  inb_S64x96_S64x96_0_0 : ∀ a, (![0, 0] : Fin 2 → Nat) a + S64x96.size a ≤ S64x96.size a
  h_S64x96 : 0 < S64x96.numel
  transposes_S64x96_p1_0_S96x64 : S64x96.Transposes [1, 0] S96x64
  inb_S5000x64_S5000x64_0_0 : ∀ a, (![0, 0] : Fin 2 → Nat) a + S5000x64.size a ≤ S5000x64.size a
  h_S5000x64 : 0 < S5000x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  shapeCasts_S5000x64_S5000x64 : S5000x64.ShapeCasts S5000x64
  concatenates_S5000x64_S5000x64_S5000x128_d1 : Shape.Concatenates [S5000x64, S5000x64] S5000x128 1
  inb_S1x5000x128_S1x5000x128_0_0_0 : ∀ a, (![0, 0, 0] : Fin 3 → Nat) a + S1x5000x128.size a ≤ S1x5000x128.size a
  h_S1x5000x128 : 0 < S1x5000x128.numel
  shapeCasts_S1x5000x128_S5000x128 : S1x5000x128.ShapeCasts S5000x128
  shapeCasts_S5000x128_S1x5000x128 : S5000x128.ShapeCasts S1x5000x128
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x64_S64x64_S50000x64_1_0_0_1_n_n_wf : DotDims.WF S50000x64 S64x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S5000x96_S96x64_S5000x64_1_0_0_1_n_n_wf : DotDims.WF S5000x96 S96x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x5000x96.size a ≤ S8x50000x96.size a
  hwx0_0 : ∀ i : grid0.Coords, EltTy.bits .f32 = 32 ∨ (Rect.block (s := S8x50000x96) S1x5000x96.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S50000x64.size a
  hwx0_1 : ∀ i : grid0.Coords, EltTy.bits .f32 = 32 ∨ (Rect.block (s := S50000x64) S5000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x96.size a ≤ S64x96.size a
  hwx0_3 : ∀ i : grid0.Coords, EltTy.bits .f32 = 32 ∨ (Rect.block (s := S64x96) S64x96.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x5000x128.size a ≤ S8x50000x128.size a
  hwx0_5 : ∀ i : grid0.Coords, EltTy.bits .f32 = 32 ∨ (Rect.block (s := S8x50000x128) S1x5000x128.size (cc0_transform_5 i) (hinb0_5 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S5000x96_S96x64_S5000x64_1_0_0_1_n_n : DotDims S5000x96 S96x64 S5000x64 where
  lhsContracting := [1]
  rhsContracting := [0]
  lhsNonContracting := [0]
  rhsNonContracting := [1]
  lhsBatch := []
  rhsBatch := []
  wf := dot_S5000x96_S96x64_S5000x64_1_0_0_1_n_n_wf

abbrev win0_0 : Pipeline.Window sig grid0 :=
  Pipeline.Window.ofSpec (Memref.whole main_arg0) S1x5000x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v49) S5000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x96.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v50) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v51) S1x5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x50000x96 : Shape := ⟨3, ![8, 50000, 96]⟩
abbrev S50000x64 : Shape := ⟨2, ![50000, 64]⟩
abbrev S64x96 : Shape := ⟨2, ![64, 96]⟩
abbrev S64 : Shape := ⟨1, ![64]⟩
abbrev S64x64 : Shape := ⟨2, ![64, 64]⟩
abbrev S2x800000 : Shape := ⟨2, ![2, 800000]⟩
abbrev S1x50000x64 : Shape := ⟨3, ![1, 50000, 64]⟩
abbrev S_ : Shape := ⟨0, ![]⟩
abbrev S8x50000x64 : Shape := ⟨3, ![8, 50000, 64]⟩
abbrev S1x1x64 : Shape := ⟨3, ![1, 1, 64]⟩
abbrev S50000 : Shape := ⟨1, ![50000]⟩
abbrev S1x50000 : Shape := ⟨2, ![1, 50000]⟩
abbrev S2x50000 : Shape := ⟨2, ![2, 50000]⟩
abbrev S2x850000 : Shape := ⟨2, ![2, 850000]⟩
abbrev S1x850000 : Shape := ⟨2, ![1, 850000]⟩
abbrev S850000 : Shape := ⟨1, ![850000]⟩
abbrev S850000x1 : Shape := ⟨2, ![850000, 1]⟩
abbrev S850000x64 : Shape := ⟨2, ![850000, 64]⟩
abbrev S1x64 : Shape := ⟨2, ![1, 64]⟩
abbrev S8x50000x128 : Shape := ⟨3, ![8, 50000, 128]⟩

abbrev nBuf : Space → Nat
  | .hbm => 87
  | .vmem => 0
  | .smem => 0
  | _ => 0

abbrev bufTy : (tb : Table) → Fin (tcTables nBuf tb) → BufTy
  | .hbm, ⟨0, _⟩ => ⟨S8x50000x96, .f32⟩
  | .hbm, ⟨1, _⟩ => ⟨S50000x64, .f32⟩
  | .hbm, ⟨2, _⟩ => ⟨S50000x64, .f32⟩
  | .hbm, ⟨3, _⟩ => ⟨S64x96, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S2x800000, .i32⟩
  | .hbm, ⟨8, _⟩ => ⟨S1x50000x64, .f32⟩
  | .hbm, ⟨9, _⟩ => ⟨S_, .f32⟩
  | .hbm, ⟨10, _⟩ => ⟨S1x50000x64, .f32⟩
  | .hbm, ⟨11, _⟩ => ⟨S1x50000x64, .f32⟩
  | .hbm, ⟨12, _⟩ => ⟨S8x50000x64, .f32⟩
  | .hbm, ⟨13, _⟩ => ⟨S1x1x64, .f32⟩
  | .hbm, ⟨14, _⟩ => ⟨S8x50000x64, .f32⟩
  | .hbm, ⟨15, _⟩ => ⟨S8x50000x64, .f32⟩
  | .hbm, ⟨16, _⟩ => ⟨S_, .f32⟩
  | .hbm, ⟨17, _⟩ => ⟨S8x50000x64, .f32⟩
  | .hbm, ⟨18, _⟩ => ⟨S8x50000x64, .f32⟩
  | .hbm, ⟨19, _⟩ => ⟨S8x50000x64, .f32⟩
  | .hbm, ⟨20, _⟩ => ⟨S8x50000x64, .f32⟩
  | .hbm, ⟨21, _⟩ => ⟨S50000, .i32⟩
  | .hbm, ⟨22, _⟩ => ⟨S1x50000, .i32⟩
  | .hbm, ⟨23, _⟩ => ⟨S1x50000, .i32⟩
  | .hbm, ⟨24, _⟩ => ⟨S2x50000, .i32⟩
  | .hbm, ⟨25, _⟩ => ⟨S2x850000, .i32⟩
  | .hbm, ⟨26, _⟩ => ⟨S1x850000, .i32⟩
  | .hbm, ⟨27, _⟩ => ⟨S850000, .i32⟩
  | .hbm, ⟨28, _⟩ => ⟨S1x850000, .i32⟩
  | .hbm, ⟨29, _⟩ => ⟨S850000, .i32⟩
  | .hbm, ⟨30, _⟩ => ⟨S_, .f32⟩
  | .hbm, ⟨31, _⟩ => ⟨S850000, .f32⟩
  | .hbm, ⟨32, _⟩ => ⟨S_, .f32⟩
  | .hbm, ⟨33, _⟩ => ⟨S50000, .f32⟩
  | .hbm, ⟨34, _⟩ => ⟨S850000x1, .i32⟩
  | .hbm, ⟨35, _⟩ => ⟨S50000, .f32⟩
  | .hbm, ⟨36, _⟩ => ⟨S_, .f32⟩
  | .hbm, ⟨37, _⟩ => ⟨S50000, .f32⟩
  | .hbm, ⟨38, _⟩ => ⟨S50000, .i1⟩
  | .hbm, ⟨39, _⟩ => ⟨S50000, .f32⟩
  | .hbm, ⟨40, _⟩ => ⟨S_, .f32⟩
  | .hbm, ⟨41, _⟩ => ⟨S_, .f32⟩
  | .hbm, ⟨42, _⟩ => ⟨S50000, .f32⟩
  | .hbm, ⟨43, _⟩ => ⟨S50000, .f32⟩
  | .hbm, ⟨44, _⟩ => ⟨S_, .i32⟩
  | .hbm, ⟨45, _⟩ => ⟨S850000, .i32⟩
  | .hbm, ⟨46, _⟩ => ⟨S850000, .i1⟩
  | .hbm, ⟨47, _⟩ => ⟨S_, .i32⟩
  | .hbm, ⟨48, _⟩ => ⟨S850000, .i32⟩
  | .hbm, ⟨49, _⟩ => ⟨S850000, .i32⟩
  | .hbm, ⟨50, _⟩ => ⟨S850000, .i32⟩
  | .hbm, ⟨51, _⟩ => ⟨S850000x1, .i32⟩
  | .hbm, ⟨52, _⟩ => ⟨S850000, .f32⟩
  | .hbm, ⟨53, _⟩ => ⟨S_, .i32⟩
  | .hbm, ⟨54, _⟩ => ⟨S850000, .i32⟩
  | .hbm, ⟨55, _⟩ => ⟨S850000, .i1⟩
  | .hbm, ⟨56, _⟩ => ⟨S_, .i32⟩
  | .hbm, ⟨57, _⟩ => ⟨S850000, .i32⟩
  | .hbm, ⟨58, _⟩ => ⟨S850000, .i32⟩
  | .hbm, ⟨59, _⟩ => ⟨S850000, .i32⟩
  | .hbm, ⟨60, _⟩ => ⟨S850000x1, .i32⟩
  | .hbm, ⟨61, _⟩ => ⟨S850000, .f32⟩
  | .hbm, ⟨62, _⟩ => ⟨S850000, .f32⟩
  | .hbm, ⟨63, _⟩ => ⟨S64x64, .f32⟩
  | .hbm, ⟨64, _⟩ => ⟨S50000x64, .f32⟩
  | .hbm, ⟨65, _⟩ => ⟨S850000x1, .f32⟩
  | .hbm, ⟨66, _⟩ => ⟨S_, .i32⟩
  | .hbm, ⟨67, _⟩ => ⟨S850000, .i32⟩
  | .hbm, ⟨68, _⟩ => ⟨S850000, .i1⟩
  | .hbm, ⟨69, _⟩ => ⟨S_, .i32⟩
  | .hbm, ⟨70, _⟩ => ⟨S850000, .i32⟩
  | .hbm, ⟨71, _⟩ => ⟨S850000, .i32⟩
  | .hbm, ⟨72, _⟩ => ⟨S850000, .i32⟩
  | .hbm, ⟨73, _⟩ => ⟨S850000x1, .i32⟩
  | .hbm, ⟨74, _⟩ => ⟨S850000x64, .f32⟩
  | .hbm, ⟨75, _⟩ => ⟨S850000x64, .f32⟩
  | .hbm, ⟨76, _⟩ => ⟨S850000x64, .f32⟩
  | .hbm, ⟨77, _⟩ => ⟨S_, .f32⟩
  | .hbm, ⟨78, _⟩ => ⟨S50000x64, .f32⟩
  | .hbm, ⟨79, _⟩ => ⟨S850000x1, .i32⟩
  | .hbm, ⟨80, _⟩ => ⟨S50000x64, .f32⟩
  | .hbm, ⟨81, _⟩ => ⟨S1x64, .f32⟩
  | .hbm, ⟨82, _⟩ => ⟨S50000x64, .f32⟩
  | .hbm, ⟨83, _⟩ => ⟨S50000x64, .f32⟩
  | .hbm, ⟨84, _⟩ => ⟨S1x50000x64, .f32⟩
  | .hbm, ⟨85, _⟩ => ⟨S8x50000x64, .f32⟩
  | .hbm, ⟨86, _⟩ => ⟨S8x50000x128, .f32⟩
  | _, _ => ⟨S8x50000x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_4 : Ref sig .tc := ⟨.hbm, 40, rfl⟩
abbrev main_call0_v0 : Ref sig .tc := ⟨.hbm, 41, rfl⟩
abbrev main_call0_v1 : Ref sig .tc := ⟨.hbm, 42, rfl⟩
abbrev main_v27 : Ref sig .tc := ⟨.hbm, 43, rfl⟩
abbrev main_c : Ref sig .tc := ⟨.hbm, 44, rfl⟩
abbrev main_v28 : Ref sig .tc := ⟨.hbm, 45, rfl⟩
abbrev main_v29 : Ref sig .tc := ⟨.hbm, 46, rfl⟩
abbrev main_c_5 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_6 : Ref sig .tc := ⟨.hbm, 53, rfl⟩
abbrev main_v35 : Ref sig .tc := ⟨.hbm, 54, rfl⟩
abbrev main_v36 : Ref sig .tc := ⟨.hbm, 55, rfl⟩
abbrev main_c_7 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_c_8 : Ref sig .tc := ⟨.hbm, 66, rfl⟩
abbrev main_v46 : Ref sig .tc := ⟨.hbm, 67, rfl⟩
abbrev main_v47 : Ref sig .tc := ⟨.hbm, 68, rfl⟩
abbrev main_c_9 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_10 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩

abbrev nD : Nat := 1
abbrev τ : Topo := Topo.v7x

variable {F : FTy → Type} [FloatOps F]

class Facts₀ : Prop where
  bcast_S50000x64_S1x50000x64_1_2 : S50000x64.BroadcastsInDim S1x50000x64 (![1, 2] : Fin 2 → Fin S1x50000x64.rank)
  bcast_S_S1x50000x64 : S_.BroadcastsInDim S1x50000x64 (![] : Fin 0 → Fin S1x50000x64.rank)
  bcast_S64_S1x1x64_2 : S64.BroadcastsInDim S1x1x64 (![2] : Fin 1 → Fin S1x1x64.rank)
  bcast_S1x1x64_S8x50000x64_0_1_2 : S1x1x64.BroadcastsInDim S8x50000x64 (![0, 1, 2] : Fin 3 → Fin S8x50000x64.rank)
  bcast_S_S8x50000x64 : S_.BroadcastsInDim S8x50000x64 (![] : Fin 0 → Fin S8x50000x64.rank)
  bcast_S1x50000x64_S8x50000x64_0_1_2 : S1x50000x64.BroadcastsInDim S8x50000x64 (![0, 1, 2] : Fin 3 → Fin S8x50000x64.rank)
  bcast_S50000_S1x50000_1 : S50000.BroadcastsInDim S1x50000 (![1] : Fin 1 → Fin S1x50000.rank)
  concatenates_S1x50000_S1x50000_S2x50000_d0 : Shape.Concatenates [S1x50000, S1x50000] S2x50000 0
  concatenates_S2x800000_S2x50000_S2x850000_d1 : Shape.Concatenates [S2x800000, S2x50000] S2x850000 1
  slices_S2x850000_S1x850000_0_0 : S2x850000.Slices ![0, 0] S1x850000
  shapeCasts_S1x850000_S850000 : S1x850000.ShapeCasts S850000
  slices_S2x850000_S1x850000_1_0 : S2x850000.Slices ![1, 0] S1x850000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  transposes_S64x64_S64x64_1_0 : S64x64.Transposes [1, 0] S64x64
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  concatenates_S8x50000x64_S8x50000x64_S8x50000x128_d2 : Shape.Concatenates [S8x50000x64, S8x50000x64] S8x50000x128 2
  dot_S8x50000x96_S64x96_S8x50000x64_2_1_01_0_n_n_wf : DotDims.WF S8x50000x96 S64x96 S8x50000x64 [2] [1] [0, 1] [0] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x64_S64x64_S50000x64_1_0_0_1_n_n_wf : DotDims.WF S50000x64 S64x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def dot_S8x50000x96_S64x96_S8x50000x64_2_1_01_0_n_n : DotDims S8x50000x96 S64x96 S8x50000x64 where
  lhsContracting := [2]
  rhsContracting := [1]
  lhsNonContracting := [0, 1]
  rhsNonContracting := [0]
  lhsBatch := []
  rhsBatch := []
  wf := dot_S8x50000x96_S64x96_S8x50000x64_2_1_01_0_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.BlendSpec.lean ====
/-
  The specification: the result array as ONE function of the argument arrays, entry by entry, over the
  extended reals.

  The result has shape [8, 50000, 128]: batch entry b, node n, output column q. Its 128 columns are two halves.

  For q < 64 the entry is the blend
      c₉ · temb[n, q] + c₁ · ((Σ_{k < 96} x[b, n, k] · W[q, k]) + bias[q]),
  a fixed convex-looking combination (c₉ and c₁ are the single-precision literals nearest 0.9 and 0.1, each at
  its exact binary value: the same two words appear in both programs, so they are never evaluated) of the
  node's temporal embedding and of a linear layer applied to the node's window of 96 readings.

  For q ≥ 64 the entry is spa[n, q − 64]: the node's spatial feature, the same for every batch entry. Here
  `spa` is a parameter: both programs compute it by the same sequence of host operations (a normalised graph
  convolution of the spatial embedding over the edge list), and the specification does not open it.
-/
import Idealize.ShloMosaic.Lib.ValueIdx

noncomputable section

open Idealize.ShloMosaic Idealize.ShloMosaic.ValueIdx

namespace Cert.Blend

/-- The blend weight of the temporal embedding: the single-precision literal nearest 0.9, at its exact value. -/
abbrev cTem : Ideal .f32 := FloatOps.ofBits .f32 0x3F666666#32
/-- The blend weight of the linear layer: the single-precision literal nearest 0.1, at its exact value. -/
abbrev cLin : Ideal .f32 := FloatOps.ofBits .f32 0x3DCCCCCD#32

/-- The result array: the blend in columns 0 … 63, the spatial feature in columns 64 … 127. -/
def G (X : (⟨3, ![8, 50000, 96]⟩ : Shape).Idx → EReal) (T Sp : (⟨2, ![50000, 64]⟩ : Shape).Idx → EReal)
    (W : (⟨2, ![64, 96]⟩ : Shape).Idx → EReal) (B : (⟨1, ![64]⟩ : Shape).Idx → EReal) :
    (⟨3, ![8, 50000, 128]⟩ : Shape).Idx → EReal := fun i =>
  if h : (i 2).val < 64 then
    cTem * T (ix2 (i 1 : Fin 50000) (⟨(i 2).val, h⟩ : Fin 64))
      + cLin * ((∑ k : Fin 96, X (ix3 (i 0 : Fin 8) (i 1 : Fin 50000) k) * W (ix2 (⟨(i 2).val, h⟩ : Fin 64) k))
          + B (ix1 (⟨(i 2).val, h⟩ : Fin 64)))
  else Sp (ix2 (i 1 : Fin 50000) (⟨(i 2).val - 64, by have : (i 2).val < 128 := (i 2).isLt; omega⟩ : Fin 64))

end Cert.Blend

end
-- ==== Proof.BlendPayload.lean ====
/-
  The kernel body's one stored value, read element by element over the extended reals.

  One grid point holds a tile of 5000 consecutive nodes of one batch entry. The value stored into the tile's
  128 output columns has two halves along the last axis.

  Columns 0 … 63 hold the blend  c₉ · temb[r, d] + c₁ · ((Σ_k x[r, k] · W[d, k]) + bias[d]):
  the product of the node tile with the transposed weight, accumulated into a zero tile, is the plain sum over
  the 96 window positions (narrowing to the short float format is the identity on extended reals, and adding the
  sum to zero changes nothing), and c₉, c₁ are the two single-precision literals 0x3F666666 and 0x3DCCCCCD at their
  exact binary values.

  Columns 64 … 127 hold the spatial tile unchanged, column q reading the spatial tile's column q − 64.
-/
import proofs.«108606_j12575664243034_1_alg».proof.Proof.Gen.KernelIdeal.Skeleton
import proofs.«108606_j12575664243034_1_alg».proof.Proof.BlendSpec
import Idealize.ShloMosaic.Lib.Pipeline.Value
import Idealize.ShloMosaic.Lib.ValueIdx
import Idealize.ShloMosaic.PureOps.Ideal.Laws

noncomputable section

open Idealize.ShloMosaic Idealize.ShloMosaic.ValueIdx

namespace Cert.KernelIdeal.Blend

open Cert.KernelIdeal Cert.KernelIdeal.Gen Cert.Blend

/-! ## The product of a node tile with the transposed weight -/

/-- The left operand is read at the output's row … -/
theorem mxu_lhs_0 (i : S5000x64.Idx) (q : dot_S5000x96_S96x64_S5000x64_1_0_0_1_n_n.contr.Idx) :
    (dot_S5000x96_S96x64_S5000x64_1_0_0_1_n_n.lhsIdx i q 0).val = (i 0).val := by
  unfold DotDims.lhsIdx
  rw [dif_neg (show ¬(0 : Fin S5000x96.rank) ∈ dot_S5000x96_S96x64_S5000x64_1_0_0_1_n_n.lhsBatch by decide), dif_pos (show (0 : Fin S5000x96.rank) ∈ dot_S5000x96_S96x64_S5000x64_1_0_0_1_n_n.lhsNonContracting by decide)]
  rfl
/-- … and at the contracted position; -/
theorem mxu_lhs_1 (i : S5000x64.Idx) (q : dot_S5000x96_S96x64_S5000x64_1_0_0_1_n_n.contr.Idx) :
    (dot_S5000x96_S96x64_S5000x64_1_0_0_1_n_n.lhsIdx i q 1).val = (q ⟨0, by decide⟩).val :=
  dot_S5000x96_S96x64_S5000x64_1_0_0_1_n_n.lhsIdx_val_of_single rfl i q
/-- the right operand at the contracted position … -/
theorem mxu_rhs_0 (i : S5000x64.Idx) (q : dot_S5000x96_S96x64_S5000x64_1_0_0_1_n_n.contr.Idx) :
    (dot_S5000x96_S96x64_S5000x64_1_0_0_1_n_n.rhsIdx i q 0).val = (q ⟨0, by decide⟩).val :=
  dot_S5000x96_S96x64_S5000x64_1_0_0_1_n_n.rhsIdx_val_of_single rfl i q
/-- … and at the output's column. -/
theorem mxu_rhs_1 (i : S5000x64.Idx) (q : dot_S5000x96_S96x64_S5000x64_1_0_0_1_n_n.contr.Idx) :
    (dot_S5000x96_S96x64_S5000x64_1_0_0_1_n_n.rhsIdx i q 1).val = (i 1).val := by
  unfold DotDims.rhsIdx
  rw [dif_neg (show ¬(1 : Fin S96x64.rank) ∈ dot_S5000x96_S96x64_S5000x64_1_0_0_1_n_n.rhsBatch by decide), dif_pos (show (1 : Fin S96x64.rank) ∈ dot_S5000x96_S96x64_S5000x64_1_0_0_1_n_n.rhsNonContracting by decide)]
  rfl

/-- The product accumulated into the zero tile, at row `r` and column `d`, is the sum over the 96 contracted
    positions of the row's entry times the column's. -/
theorem mxu_apply (a : FVec Ideal S5000x96 .bf16) (b : FVec Ideal S96x64 .bf16) (r : Fin 5000) (d : Fin 64) :
    matmul dot_S5000x96_S96x64_S5000x64_1_0_0_1_n_n none a b (constant S5000x64 .f32 0x00000000#32) (ix2 r d)
      = ∑ k : Fin 96, a (ix2 r k) * b (ix2 k d) := by
  simp only [matmul]
  rw [Ideal.matmul_constant_zero_apply, ← Equiv.sum_comp (contrEquiv1 dot_S5000x96_S96x64_S5000x64_1_0_0_1_n_n 96 rfl rfl).symm]
  refine Finset.sum_congr rfl fun k _ => ?_
  have hk := contrEquiv1_symm_val dot_S5000x96_S96x64_S5000x64_1_0_0_1_n_n 96 rfl rfl k
  have el : dot_S5000x96_S96x64_S5000x64_1_0_0_1_n_n.lhsIdx (ix2 r d) ((contrEquiv1 dot_S5000x96_S96x64_S5000x64_1_0_0_1_n_n 96 rfl rfl).symm k) = ix2 r k := funext fun a => Fin.ext (by
    match a with
    | ⟨0, _⟩ => exact mxu_lhs_0 _ _
    | ⟨1, _⟩ => exact (mxu_lhs_1 _ _).trans hk)
  have er : dot_S5000x96_S96x64_S5000x64_1_0_0_1_n_n.rhsIdx (ix2 r d) ((contrEquiv1 dot_S5000x96_S96x64_S5000x64_1_0_0_1_n_n 96 rfl rfl).symm k) = ix2 k d := funext fun a => Fin.ext (by
    match a with
    | ⟨0, _⟩ => exact (mxu_rhs_0 _ _).trans hk
    | ⟨1, _⟩ => exact mxu_rhs_1 _ _)
  rw [el, er]

/-! ## The stored tile, column by column -/

variable (x0 : Vec Ideal S1x5000x96 .f32) (w : Vec Ideal S64x96 .f32) (te : Vec Ideal S5000x64 .f32)
  (bi : Vec Ideal S1x64 .f32) (sp : Vec Ideal S5000x64 .f32)

/-- The stored tile read at `(0, r, q)` is the two-halves value before its leading unit axis was added, at `(r, q)`. -/
theorem rowMajor_tile (r : Fin 5000) (q : Fin 128) :
    (S5000x128.rowMajor (ix2 r q)).val = (S1x5000x128.rowMajor (ix3 (0 : Fin 1) r q)).val := by
  rw [Shape.rowMajor_val_two, Shape.rowMajor_val_three]
  show r.val * 128 + q.val = ((0 : Fin 1).val * 5000 + r.val) * 128 + q.val
  simp

/-- A column of the first half: the blend of the temporal tile with the linear layer of the node tile. -/
theorem pay_blend (r : Fin 5000) (q : Fin 128) (d : Fin 64) (hq : q.val = d.val) :
    k0_pay1 x0 w te bi sp (ix3 (0 : Fin 1) r q)
      = cTem * te (ix2 r d) + cLin * ((∑ k : Fin 96, x0 (ix3 (0 : Fin 1) r k) * w (ix2 d k)) + bi (ix2 (0 : Fin 1) d)) := by
  unfold k0_pay1
  dsimp only
  refine (shapeCast_apply _ _ (ix3 (0 : Fin 1) r q) (ix2 r q) (rowMajor_tile r q)).trans ?_
  refine (concatenate_pair_apply_left (t := S5000x128) (s₁ := S5000x64) (s₂ := S5000x64) (1 : Fin 2) _ _ _ (ix2 r q) rfl (ix2 r d) (fun b => by
    match b with
    | ⟨0, _⟩ => rfl
    | ⟨1, _⟩ => exact hq.symm)).trans ?_
  show cTem * te (ix2 r d) + cLin * (matmul dot_S5000x96_S96x64_S5000x64_1_0_0_1_n_n none _ _ (constant S5000x64 .f32 0x00000000#32) (ix2 r d) + broadcastTo S5000x64 (shapeCast S1x64 bi _) _ (ix2 r d)) = _
  rw [mxu_apply, shapeCast_self, broadcastTo_apply bi _ (ix2 r d) (ix2 (0 : Fin 1) d) (fun a => by
    match a with
    | ⟨0, _⟩ => rfl
    | ⟨1, _⟩ => rfl)]
  congr 2
  congr 1
  refine Finset.sum_congr rfl fun k _ => ?_
  congr 1
  · exact shapeCast_apply x0 _ (ix2 r k) (ix3 (0 : Fin 1) r k) (by
      rw [Shape.rowMajor_val_two, Shape.rowMajor_val_three]
      show ((0 : Fin 1).val * 5000 + r.val) * 96 + k.val = r.val * 96 + k.val
      simp)
  · exact transpose_apply _ _ _ (ix2 k d) (ix2 d k) (fun b => by
      match b with
      | ⟨0, _⟩ => rfl
      | ⟨1, _⟩ => rfl)

/-- A column of the second half: the spatial tile's column `q − 64`, unchanged. -/
theorem pay_spatial (r : Fin 5000) (q : Fin 128) (d : Fin 64) (hq : q.val = d.val + 64) :
    k0_pay1 x0 w te bi sp (ix3 (0 : Fin 1) r q) = sp (ix2 r d) := by
  unfold k0_pay1
  dsimp only
  refine (shapeCast_apply _ _ (ix3 (0 : Fin 1) r q) (ix2 r q) (rowMajor_tile r q)).trans ?_
  refine (concatenate_pair_apply_right (t := S5000x128) (s₁ := S5000x64) (s₂ := S5000x64) (1 : Fin 2) _ _ _ (ix2 r q) rfl rfl (ix2 r d) (fun b hb => by
    match b with
    | ⟨0, _⟩ => rfl
    | ⟨1, _⟩ => exact absurd rfl hb) (by show d.val + 64 = q.val; omega)).trans ?_
  rw [shapeCast_self]

/-! ## A tile entry is the specification's entry -/

/-- If the tile's loaded blocks are the right rows of whole arrays `X`, `T`, `Sp`, `W`, `B` — the node tile row `r`
    being row `(i 0, i 1)` of `X`, the temporal and spatial tiles' row `r` being row `i 1` of `T` and `Sp`, the weight
    and the bias whole — then the stored tile at `(0, r, q)` is the specification at the array index `i` with the same
    column. -/
theorem tile_apply (X : Vec Ideal S8x50000x96 .f32) (T Sp : Vec Ideal S50000x64 .f32) (W : Vec Ideal S64x96 .f32)
    (B : Vec Ideal S64 .f32) (r : Fin 5000) (q : Fin 128) (i : S8x50000x128.Idx)
    (hcol : (i 2).val = q.val)
    (hx : ∀ k : Fin 96, x0 (ix3 (0 : Fin 1) r k) = X (ix3 (i 0 : Fin 8) (i 1 : Fin 50000) k))
    (ht : ∀ d : Fin 64, te (ix2 r d) = T (ix2 (i 1 : Fin 50000) d))
    (hs : ∀ d : Fin 64, sp (ix2 r d) = Sp (ix2 (i 1 : Fin 50000) d))
    (hw : ∀ (d : Fin 64) (k : Fin 96), w (ix2 d k) = W (ix2 d k))
    (hb : ∀ d : Fin 64, bi (ix2 (0 : Fin 1) d) = B (ix1 d)) :
    k0_pay1 x0 w te bi sp (ix3 (0 : Fin 1) r q) = G X T Sp W B i := by
  have hi2 : (i 2).val < 128 := (i 2).isLt
  unfold G
  by_cases h : (i 2).val < 64
  · rw [dif_pos h]
    have hsum : (∑ k : Fin 96, x0 (ix3 (0 : Fin 1) r k) * w (ix2 (⟨(i 2).val, h⟩ : Fin 64) k))
        = ∑ k : Fin 96, X (ix3 (i 0 : Fin 8) (i 1 : Fin 50000) k) * W (ix2 (⟨(i 2).val, h⟩ : Fin 64) k) :=
      Finset.sum_congr rfl fun k _ => by rw [hx k, hw _ k]
    rw [pay_blend x0 w te bi sp r q ⟨(i 2).val, h⟩ hcol.symm, ht, hb, hsum]
  · rw [dif_neg h]
    rw [pay_spatial x0 w te bi sp r q ⟨(i 2).val - 64, by omega⟩ (by show q.val = (i 2).val - 64 + 64; omega), hs]

end Cert.KernelIdeal.Blend

end
-- ==== Proof.HostBias.lean ====
/-
  The bias window's array.

  Of the host operations @main runs before its region, the last one reshapes the bias argument [64] to the
  [1, 64] array the kernel's bias window stages, and no operation writes the bias argument. So that array's
  entry (0, d) is the bias argument's entry d, for every float family.
-/
import proofs.«108606_j12575664243034_1_alg».proof.Proof.Gen.KernelIdeal.Frame
import Idealize.ShloMosaic.Lib.StableHlo.Run
import Idealize.ShloMosaic.Lib.Pipeline.Value
import Idealize.ShloMosaic.Lib.ValueIdx

noncomputable section

open Idealize.ShloMosaic Idealize.ShloMosaic.TcCoe Idealize.SL.Sem Idealize.ShloMosaic.StableHlo Idealize.ShloMosaic.ValueIdx

namespace Cert.KernelIdeal.Blend

open Cert.KernelIdeal Cert.KernelIdeal.Gen

variable {F : FTy → Type} [FloatOps F] (m : (ℓ : Loc nD τ sig) → Buf (Elt F) ℓ)

set_option maxRecDepth 16384 in
set_option maxHeartbeats 8000000 in
/-- The array the bias window stages is the bias argument with a unit axis in front. -/
theorem bias_row (c : Dev nD) :
    (V m c main_v50 : S1x64.Idx → Elt F .f32)
      = shapeCast S1x64 (m ((c : Thread nD τ).loc main_arg4) : S64.Idx → Elt F .f32) shapeCasts_S64_S1x64 := by
  dsimp only [V]
  simp only [hostOps0, hostOps0_1, hostOps0_2, List.flatten_cons, List.flatten_nil, List.append_nil, List.cons_append,
    List.nil_append]
  after_results_simp
  rfl

/-- Its entry (0, d) is the bias argument's entry d. -/
theorem bias_at (c : Dev nD) (d : Fin 64) :
    (V m c main_v50 : S1x64.Idx → Elt F .f32) (ix2 (⟨0, Nat.one_pos⟩ : Fin 1) d)
      = (m ((c : Thread nD τ).loc main_arg4) : S64.Idx → Elt F .f32) (ix1 d) := by
  rw [bias_row m c]
  refine shapeCast_apply _ _ _ (ix1 d) ?_
  rw [Shape.rowMajor_val_one, Shape.rowMajor_val_two]
  show d.val = 0 * 64 + d.val
  omega

end Cert.KernelIdeal.Blend

end
-- ==== Proof.TileValue.lean ====
/-
  What the kernel's result array holds after the run: the specification `G` of the arrays the region finds.

  The grid has 8 × 10 points: point (b, p) handles batch entry b and the nodes 5000 p … 5000 p + 4999. There
  the node window is block (b, p, 0) of x, the temporal and spatial windows are block (p, 0) of their
  [50000, 64] arrays, the weight and the bias are whole, and the output window is block (b, p, 0) of the
  result. A block's coordinate on an axis is always block index × block extent + the coordinate inside the
  block, so row r of the tile is node 5000 p + r, and the stored tile at (0, r, q) is `G` at (b, 5000 p + r, q):
  point t writes back block t of `G`. The 80 blocks tile the result (node n lies in block n / 5000), so the
  result array ends holding `G` everywhere.

  The write-back equation is proved for ARBITRARY arrays behind the five input windows (the body only sees
  their blocks), and then read at the arrays the region finds.
-/
import proofs.«108606_j12575664243034_1_alg».proof.Proof.Gen.KernelIdeal.Value
import proofs.«108606_j12575664243034_1_alg».proof.Proof.BlendPayload
import proofs.«108606_j12575664243034_1_alg».proof.Proof.HostBias
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Blend

open Cert.KernelIdeal Cert.KernelIdeal.Gen Cert.KernelIdeal.Value Cert.Blend

theorem zero3 : (![0, 0, 0] : Fin 3 → Nat) = fun _ => 0 := funext fun a => by fin_cases a <;> rfl
theorem zero2 : (![0, 0] : Fin 2 → Nat) = fun _ => 0 := funext fun a => by fin_cases a <;> rfl

/-- The printed index maps over the 80 grid points: the node window moves with the output window on the batch and
    node-block axes; the temporal and spatial windows follow the output's node-block axis; the weight, the bias and
    every window's last axis stay at block 0; the output's block indices stay below 8 and 10. -/
theorem index_maps : ∀ t : Fin cfg0.N,
    win0_0.index t (0 : Fin 3) = win0_5.index t (0 : Fin 3) ∧ win0_0.index t (1 : Fin 3) = win0_5.index t (1 : Fin 3)
    ∧ win0_0.index t (2 : Fin 3) = 0
    ∧ win0_1.index t (0 : Fin 2) = win0_5.index t (1 : Fin 3) ∧ win0_1.index t (1 : Fin 2) = 0
    ∧ win0_2.index t (0 : Fin 2) = win0_5.index t (1 : Fin 3) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (2 : Fin 3) = 0 ∧ win0_5.index t (0 : Fin 3) ≤ 7 ∧ win0_5.index t (1 : Fin 3) ≤ 9 :=
  (by decide +kernel : ∀ t : Fin grid0.N, _)

/-- Every block (b, p, 0) of the result is some point's. -/
theorem index_onto : ∀ (b : Fin 8) (p : Fin 10), ∃ t : Fin cfg0.N, win0_5.index t = ![b.val, p.val, 0] :=
  (by decide +kernel : ∀ (b : Fin 8) (p : Fin 10), ∃ t : Fin grid0.N, win0_5.index t = ![b.val, p.val, 0])

/-- THE TILE AT POINT `t`, for any arrays behind the input windows: the body's stored value of the five blocks at `t`,
    read through the output window, is block `t` of the specification of those arrays (the bias array `A4` being the
    bias `B` with a unit axis in front). -/
theorem tile_of_arrays (t : Fin cfg0.N) (A0 : Vec Ideal S8x50000x96 .f32) (A1 A2 : Vec Ideal S50000x64 .f32)
    (A3 : Vec Ideal S64x96 .f32) (A4 : Vec Ideal S1x64 .f32) (B : Vec Ideal S64 .f32)
    (hB : ∀ d : Fin 64, A4 (ix2 (⟨0, Nat.one_pos⟩ : Fin 1) d) = B (ix1 d)) :
    (cfg0.win 5).cut (grid0.coords t) (out0_5 (((cfg0.win 0).blk t).view.read (Elt Ideal) A0)
        (((cfg0.win 1).blk t).view.read (Elt Ideal) A1) (((cfg0.win 2).blk t).view.read (Elt Ideal) A2)
        (((cfg0.win 3).blk t).view.read (Elt Ideal) A3) (((cfg0.win 4).blk t).view.read (Elt Ideal) A4))
      = ((cfg0.win 5).blk t).view.read (Elt Ideal) (G A0 A1 A2 A3 B) := by
  unfold out0_5
  rw [View.canon_unit_zero zero3]
  simp only [View.ld_unit_zero (S := S1x5000x96) zero3, View.ld_unit_zero (S := S64x96) zero2,
    View.ld_unit_zero (S := S5000x64) zero2, View.ld_unit_zero (S := S1x64) zero2]
  obtain ⟨e00, e01, e02, e10, e11, e20, e21, e30, e31, e40, e41, e52, b0, b1⟩ := index_maps t
  funext j
  have hj0 : (j 0).val < 1 := (j 0).isLt
  have hj1 : (j 1).val < 5000 := (j 1).isLt
  have hj2 : (j 2).val < 128 := (j 2).isLt
  have hj : j = ix3 (⟨0, Nat.one_pos⟩ : Fin 1) (⟨(j 1).val, hj1⟩ : Fin 5000) (⟨(j 2).val, hj2⟩ : Fin 128) := by
    funext a; apply Fin.ext
    match a with
    | ⟨0, _⟩ => show (j 0).val = 0; omega
    | ⟨1, _⟩ => rfl
    | ⟨2, _⟩ => rfl
  show k0_pay1 (((cfg0.win 0).blk t).view.read (Elt Ideal) A0) (((cfg0.win 3).blk t).view.read (Elt Ideal) A3)
      (((cfg0.win 1).blk t).view.read (Elt Ideal) A1) (((cfg0.win 4).blk t).view.read (Elt Ideal) A4)
      (((cfg0.win 2).blk t).view.read (Elt Ideal) A2) j
    = G A0 A1 A2 A3 B (((cfg0.win 5).blk t).view.emb j)
  refine (congrArg (k0_pay1 (((cfg0.win 0).blk t).view.read (Elt Ideal) A0) (((cfg0.win 3).blk t).view.read (Elt Ideal) A3)
      (((cfg0.win 1).blk t).view.read (Elt Ideal) A1) (((cfg0.win 4).blk t).view.read (Elt Ideal) A4)
      (((cfg0.win 2).blk t).view.read (Elt Ideal) A2)) hj).trans ?_
  refine tile_apply (((cfg0.win 0).blk t).view.read (Elt Ideal) A0) (((cfg0.win 3).blk t).view.read (Elt Ideal) A3)
    (((cfg0.win 1).blk t).view.read (Elt Ideal) A1) (((cfg0.win 4).blk t).view.read (Elt Ideal) A4)
    (((cfg0.win 2).blk t).view.read (Elt Ideal) A2) A0 A1 A2 A3 B
    ⟨(j 1).val, hj1⟩ ⟨(j 2).val, hj2⟩ (((cfg0.win 5).blk t).view.emb j) ?_ ?_ ?_ ?_ ?_ ?_
  · show win0_5.index t (2 : Fin 3) * 128 + 1 * (j 2).val = (j 2).val
    omega
  · intro k
    show A0 (((cfg0.win 0).blk t).view.emb (ix3 (⟨0, Nat.one_pos⟩ : Fin 1) (⟨(j 1).val, hj1⟩ : Fin 5000) k)) = A0 _
    refine congrArg A0 (funext fun a => Fin.ext ?_)
    match a with
    | ⟨0, _⟩ => show win0_0.index t (0 : Fin 3) * 1 + 1 * 0 = win0_5.index t (0 : Fin 3) * 1 + 1 * (j 0).val; omega
    | ⟨1, _⟩ => show win0_0.index t (1 : Fin 3) * 5000 + 1 * (j 1).val = win0_5.index t (1 : Fin 3) * 5000 + 1 * (j 1).val; omega
    | ⟨2, _⟩ => show win0_0.index t (2 : Fin 3) * 96 + 1 * k.val = k.val; omega
  · intro d
    show A1 (((cfg0.win 1).blk t).view.emb (ix2 (⟨(j 1).val, hj1⟩ : Fin 5000) d)) = A1 _
    refine congrArg A1 (funext fun a => Fin.ext ?_)
    match a with
    | ⟨0, _⟩ => show win0_1.index t (0 : Fin 2) * 5000 + 1 * (j 1).val = win0_5.index t (1 : Fin 3) * 5000 + 1 * (j 1).val; omega
    | ⟨1, _⟩ => show win0_1.index t (1 : Fin 2) * 64 + 1 * d.val = d.val; omega
  · intro d
    show A2 (((cfg0.win 2).blk t).view.emb (ix2 (⟨(j 1).val, hj1⟩ : Fin 5000) d)) = A2 _
    refine congrArg A2 (funext fun a => Fin.ext ?_)
    match a with
    | ⟨0, _⟩ => show win0_2.index t (0 : Fin 2) * 5000 + 1 * (j 1).val = win0_5.index t (1 : Fin 3) * 5000 + 1 * (j 1).val; omega
    | ⟨1, _⟩ => show win0_2.index t (1 : Fin 2) * 64 + 1 * d.val = d.val; omega
  · intro d k
    show A3 (((cfg0.win 3).blk t).view.emb (ix2 d k)) = A3 _
    refine congrArg A3 (funext fun a => Fin.ext ?_)
    match a with
    | ⟨0, _⟩ => show win0_3.index t (0 : Fin 2) * 64 + 1 * d.val = d.val; omega
    | ⟨1, _⟩ => show win0_3.index t (1 : Fin 2) * 96 + 1 * k.val = k.val; omega
  · intro d
    show A4 (((cfg0.win 4).blk t).view.emb (ix2 (⟨0, Nat.one_pos⟩ : Fin 1) d)) = B (ix1 d)
    refine (congrArg A4 (funext fun a => Fin.ext ?_)).trans (hB d)
    match a with
    | ⟨0, _⟩ => show win0_4.index t (0 : Fin 2) * 1 + 1 * 0 = 0; omega
    | ⟨1, _⟩ => show win0_4.index t (1 : Fin 2) * 64 + 1 * d.val = d.val; omega

variable (m : (ℓ : Loc nD τ sig) → Buf (Elt Ideal) ℓ) (ρ : Dev nD → PrngReg)

/-- WHAT POINT `t` WRITES BACK is block `t` of the specification of the arrays as the region finds them. -/
theorem flushed_eq (c : Dev nD) (t : Fin cfg0.N) :
    (dats m 0 c).flushed 5 t = ((cfg0.win 5).blk t).view.read (Elt Ideal)
      (G (V m c (Pipeline.arrRef spec0 0)) (V m c (Pipeline.arrRef spec0 1)) (V m c (Pipeline.arrRef spec0 2))
        (V m c (Pipeline.arrRef spec0 3)) (m ((c : Thread nD τ).loc main_arg4))) := by
  rw [Value.flushed5]
  unfold iblk
  exact tile_of_arrays t (V m c (Pipeline.arrRef spec0 0)) (V m c (Pipeline.arrRef spec0 1)) (V m c (Pipeline.arrRef spec0 2))
    (V m c (Pipeline.arrRef spec0 3)) (V m c (Pipeline.arrRef spec0 4)) (m ((c : Thread nD τ).loc main_arg4)) (bias_at m c)

/-- An index of the result is in point `t`'s block iff each coordinate is in the block's range on its axis. -/
theorem mem_block (t : Fin cfg0.N) (i : S8x50000x128.Idx) :
    i ∈ ((cfg0.win 5).blk t).view.set ↔ ∀ a : Fin 3, win0_5.index t a * S1x5000x128.size a ≤ (i a).val ∧ (i a).val < win0_5.index t a * S1x5000x128.size a + S1x5000x128.size a := by
  show i ∈ ((View.whole main_v51).slice (win0_5.rect t)).set ↔ _
  rw [View.set_slice_whole, Rect.mem_set_unit]
  exact Iff.rfl

/-- The 80 blocks tile the result: entry (b, n, q) lies in the block of batch entry b and node block n / 5000. -/
theorem covered (i : S8x50000x128.Idx) :
    ∃ t : Fin cfg0.N, (cfg0.win 5).flush t = true ∧ i ∈ ((cfg0.win 5).blk t).view.set := by
  have hi0 : (i 0).val < 8 := (i 0).isLt
  have hi1 : (i 1).val < 50000 := (i 1).isLt
  have hi2 : (i 2).val < 128 := (i 2).isLt
  obtain ⟨t, ht⟩ := index_onto ⟨(i 0).val, hi0⟩ ⟨(i 1).val / 5000, by omega⟩
  have q0 : win0_5.index t (0 : Fin 3) = (i 0).val := congrFun ht 0
  have q1 : win0_5.index t (1 : Fin 3) = (i 1).val / 5000 := congrFun ht 1
  have q2 : win0_5.index t (2 : Fin 3) = 0 := congrFun ht 2
  refine ⟨t, flush0_5 t, ?_⟩
  rw [mem_block]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 5000 ≤ (i 1).val ∧ (i 1).val < win0_5.index t (1 : Fin 3) * 5000 + 5000; omega
  | ⟨2, _⟩ => show win0_5.index t (2 : Fin 3) * 128 ≤ (i 2).val ∧ (i 2).val < win0_5.index t (2 : Fin 3) * 128 + 128; omega

/-- The spatial feature: the array behind the spatial window as the region finds it, which the host operations
    before the region computed. -/
def spatial (c : Dev nD) : Vec Ideal S50000x64 .f32 := V m c (Pipeline.arrRef spec0 2)

/-- THE RESULT ARRAY after the run: the specification of the float arguments as launched and of the spatial feature. -/
theorem final (c : Dev nD) : (dats m 0 c).arrAt 5 cfg0.N
    = G (m ((c : Thread nD τ).loc main_arg0)) (m ((c : Thread nD τ).loc main_arg1)) (spatial m c)
        (m ((c : Thread nD τ).loc main_arg3)) (m ((c : Thread nD τ).loc main_arg4)) := by
  have h0 : V m c (Pipeline.arrRef spec0 0) = m ((c : Thread nD τ).loc main_arg0) := V_main_arg0 m c
  have h1 : V m c (Pipeline.arrRef spec0 1) = m ((c : Thread nD τ).loc main_arg1) := V_main_arg1 m c
  have h3 : V m c (Pipeline.arrRef spec0 3) = m ((c : Thread nD τ).loc main_arg3) := V_main_arg3 m c
  rw [(dats m 0 c).arrAt_eq_of_cover 5 _ (fun t _ => flushed_eq m c t) covered, h0, h1, h3]
  rfl

/-- The run, read: the result array at the specification, the arguments unchanged. -/
theorem run : θ_run defs (onTc (τ := τ) (main (F := Ideal))) ⟨m, fun _ => 0, ρ⟩ fun r => ∀ c : Dev nD,
      r.2.mem ((c : Thread nD τ).loc main_v51)
        = G (m ((c : Thread nD τ).loc main_arg0)) (m ((c : Thread nD τ).loc main_arg1)) (spatial m c)
            (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun _ h c => ⟨(h c).1.trans (final m c), (h c).2⟩) (Value.run_blocks m ρ)

end Cert.KernelIdeal.Blend

end
-- ==== Proof.RefValue.lean ====
/-
  The reference's result is the specification `G` of its arguments, with its own spatial stage in the spatial slot.

  The reference ends in a concatenation along the last axis of two [8, 50000, 64] arrays. Column q < 64 of the
  result reads the first one at (b, n, q): 0.9-literal times the temporal embedding broadcast over the batch, plus
  0.1-literal times (the contraction of x with the weight over the 96 window positions, plus the broadcast bias) —
  each stage read at an index by the generated stage lemmas, every broadcast's index map collapsing to the
  coordinates it keeps. Column q ≥ 64 reads the second one at (b, n, q − 64): the graph-convolution stage
  broadcast over the batch, that is the stage itself at (n, q − 64).
-/
import proofs.«108606_j12575664243034_1_alg».proof.Proof.RefRead
import proofs.«108606_j12575664243034_1_alg».proof.Proof.BlendSpec
import Idealize.ShloMosaic.Lib.Pipeline.Value
import Idealize.ShloMosaic.Lib.ValueIdx

noncomputable section

open Idealize.ShloMosaic Idealize.ShloMosaic.ValueIdx

namespace Cert.ReferenceIdeal.RefValue

open Cert.ReferenceIdeal Cert.ReferenceIdeal.Gen Cert.ReferenceIdeal.ReadP Cert.Blend

/-- The reference's last stage, as a function of the argument arrays, is the specification. -/
theorem result_eq (x0 : (⟨S8x50000x96, .f32⟩ : BufTy).Contents (Elt Ideal)) (x1 x2 : (⟨S50000x64, .f32⟩ : BufTy).Contents (Elt Ideal))
    (x3 : (⟨S64x96, .f32⟩ : BufTy).Contents (Elt Ideal)) (x4 : (⟨S64, .f32⟩ : BufTy).Contents (Elt Ideal))
    (x5 : (⟨S64x64, .f32⟩ : BufTy).Contents (Elt Ideal)) (x6 : (⟨S64, .f32⟩ : BufTy).Contents (Elt Ideal))
    (x7 : (⟨S2x800000, .i32⟩ : BufTy).Contents (Elt Ideal)) :
    val_main_v63 (F := Ideal) x0 x1 x2 x3 x4 x5 x6 x7 = G x0 x1 (val_main_v60 (F := Ideal) x2 x5 x6 x7) x3 x4 := by
  funext i
  have hi2 : (i 2).val < 128 := (i 2).isLt
  unfold val_main_v63 G
  by_cases h : (i 2).val < 64
  · rw [dif_pos h]
    refine (concatenate_pair_apply_left (t := S8x50000x128) (s₁ := S8x50000x64) (s₂ := S8x50000x64) (2 : Fin 3) _ _ _ i rfl
      (ix3 (i 0 : Fin 8) (i 1 : Fin 50000) (⟨(i 2).val, h⟩ : Fin 64)) (fun b => by
        match b with
        | ⟨0, _⟩ => rfl
        | ⟨1, _⟩ => rfl
        | ⟨2, _⟩ => rfl)).trans ?_
    rw [val_main_v10_apply, val_main_v9_apply, val_main_v2_apply, val_main_v1_apply, val_main_v0_apply, val_main_cst_apply,
      val_main_v8_apply, val_main_v7_apply, val_main_cst_0_apply, val_main_v6_apply, val_main_v3_apply, val_main_v5_apply,
      val_main_v4_apply]
    have e1 : idx_main_v0 (idx_main_v9 (ix3 (i 0 : Fin 8) (i 1 : Fin 50000) (⟨(i 2).val, h⟩ : Fin 64)))
        = ix2 (i 1 : Fin 50000) (⟨(i 2).val, h⟩ : Fin 64) := funext fun a => Fin.ext (by
      match a with
      | ⟨0, _⟩ => rfl
      | ⟨1, _⟩ => rfl)
    have e2 : ∀ k : Fin 96, lidx_main_v3 (ix3 (i 0 : Fin 8) (i 1 : Fin 50000) (⟨(i 2).val, h⟩ : Fin 64)) k
        = ix3 (i 0 : Fin 8) (i 1 : Fin 50000) k := fun k => funext fun a => Fin.ext (by
      match a with
      | ⟨0, _⟩ => rfl
      | ⟨1, _⟩ => rfl
      | ⟨2, _⟩ => rfl)
    have e3 : ∀ k : Fin 96, ridx_main_v3 (ix3 (i 0 : Fin 8) (i 1 : Fin 50000) (⟨(i 2).val, h⟩ : Fin 64)) k
        = ix2 (⟨(i 2).val, h⟩ : Fin 64) k := fun k => funext fun a => Fin.ext (by
      match a with
      | ⟨0, _⟩ => rfl
      | ⟨1, _⟩ => rfl)
    have e4 : idx_main_v4 (idx_main_v5 (ix3 (i 0 : Fin 8) (i 1 : Fin 50000) (⟨(i 2).val, h⟩ : Fin 64)))
        = ix1 (⟨(i 2).val, h⟩ : Fin 64) := funext fun a => Fin.ext (by
      match a with
      | ⟨0, _⟩ => rfl)
    rw [e1, e4]
    simp only [e2, e3]
    rfl
  · rw [dif_neg h]
    refine (concatenate_pair_apply_right (t := S8x50000x128) (s₁ := S8x50000x64) (s₂ := S8x50000x64) (2 : Fin 3) _ _ _ i rfl rfl
      (ix3 (i 0 : Fin 8) (i 1 : Fin 50000) (⟨(i 2).val - 64, by omega⟩ : Fin 64)) (fun b hb => by
        match b with
        | ⟨0, _⟩ => rfl
        | ⟨1, _⟩ => rfl
        | ⟨2, _⟩ => exact absurd rfl hb) (by show (i 2).val - 64 + 64 = (i 2).val; omega)).trans ?_
    rw [val_main_v62_apply, val_main_v61_apply]
    refine congrArg (val_main_v60 (F := Ideal) x2 x5 x6 x7) (funext fun a => Fin.ext ?_)
    match a with
    | ⟨0, _⟩ => rfl
    | ⟨1, _⟩ => rfl

end Cert.ReferenceIdeal.RefValue

end
-- ==== Proof.HostPrefix.lean ====
/-
  The spatial feature is one term in both programs.

  Before its one region the kernel's @main runs, on the host, the normalised graph convolution of the spatial
  embedding: self loops appended to the edge list, the in-degree of every node by a scatter-add of ones, its inverse
  square root where positive, the product of the two end nodes' factors per edge, the embedding times the
  transposed weight, each edge's source row scaled and scatter-added into its target row, and the bias added.
  The reference runs the very same sequence of operations on the same arguments (it only runs the blend's
  operations first). So the array the kernel's spatial window reads is, operation for operation, the reference's
  stage for the convolution: unfolding the host operations' fold on one side and the stages on the other gives
  the same composition, the two differing only in which program's copy of a shape or of a dimension record they
  name, and those copies unfold to the same literals. This holds for every float family: no arithmetic is used.
-/
import proofs.«108606_j12575664243034_1_alg».proof.Proof.Gen.KernelIdeal.Frame
import proofs.«108606_j12575664243034_1_alg».proof.Proof.RefRead
import Idealize.ShloMosaic.Lib.StableHlo.Run
import Idealize.ShloMosaic.Lib.Pipeline.Regions

noncomputable section

open Idealize.ShloMosaic Idealize.ShloMosaic.TcCoe Idealize.SL.Sem Idealize.ShloMosaic.Pipeline

namespace Cert.KernelIdeal.Blend

open Cert.KernelIdeal Cert.KernelIdeal.Gen

variable {F : FTy → Type} [FloatOps F] (m : (ℓ : Loc nD τ sig) → Buf (Elt F) ℓ)

set_option maxRecDepth 65536 in
/-- The array behind the spatial window, as the region finds it, is the reference's graph-convolution stage of the
    kernel's own arguments. -/
theorem spatial_eq (c : Dev nD) :
    (V m c (Pipeline.arrRef spec0 2) : S50000x64.Idx → Elt F .f32)
      = Cert.ReferenceIdeal.ReadP.val_main_v60 (F := F) (m ((c : Thread nD τ).loc main_arg2))
          (m ((c : Thread nD τ).loc main_arg5)) (m ((c : Thread nD τ).loc main_arg6)) (m ((c : Thread nD τ).loc main_arg7)) := by
  chain_rfl

end Cert.KernelIdeal.Blend

end
-- ==== Proof.lean ====
/-
  The certificate: the kernel (a row-tiled blend of the temporal embedding with a linear layer of each node's
  window, concatenated with a spatial feature computed on the host) equals its reference over the extended reals.

  Frames: the two kernel programs' are generated whole; the reference's is its run with the result dropped.
  `preserves` has no ledger entry. `algebraic`: the kernel's result array ends at the specification `G` of its
  arguments and of the spatial feature its host operations compute (Proof/TileValue.lean, over the payload read in
  Proof/BlendPayload.lean); the reference's result is `G` of its arguments and of its own convolution stage
  (Proof/RefValue.lean); the two spatial features are one term (Proof/HostPrefix.lean); and the arguments agree.
  No law of the extended reals beyond "zero plus a sum is the sum" is used, so the finiteness of the inputs is not.
-/
import proofs.«108606_j12575664243034_1_alg».proof.Defs
import proofs.«108606_j12575664243034_1_alg».proof.Proof.Gen.Kernel
import proofs.«108606_j12575664243034_1_alg».proof.Proof.Gen.Kernel.Skeleton
import proofs.«108606_j12575664243034_1_alg».proof.Proof.Gen.Kernel.Launch
import proofs.«108606_j12575664243034_1_alg».proof.Proof.Gen.Kernel.Points
import proofs.«108606_j12575664243034_1_alg».proof.Proof.Gen.Kernel.Frame
import proofs.«108606_j12575664243034_1_alg».proof.Proof.Gen.KernelIdeal
import proofs.«108606_j12575664243034_1_alg».proof.Proof.Gen.KernelIdeal.Skeleton
import proofs.«108606_j12575664243034_1_alg».proof.Proof.Gen.KernelIdeal.Launch
import proofs.«108606_j12575664243034_1_alg».proof.Proof.Gen.KernelIdeal.Points
import proofs.«108606_j12575664243034_1_alg».proof.Proof.Gen.KernelIdeal.Frame
import proofs.«108606_j12575664243034_1_alg».proof.Proof.Gen.ReferenceIdeal
import proofs.«108606_j12575664243034_1_alg».proof.Proof.Gen.Pre_finite_inputs
import proofs.«108606_j12575664243034_1_alg».proof.Proof.Gen.KernelIdeal.Value
import proofs.«108606_j12575664243034_1_alg».proof.Proof.RefRun
import proofs.«108606_j12575664243034_1_alg».proof.Proof.RefRead
import proofs.«108606_j12575664243034_1_alg».proof.Proof.BlendSpec
import proofs.«108606_j12575664243034_1_alg».proof.Proof.BlendPayload
import proofs.«108606_j12575664243034_1_alg».proof.Proof.TileValue
import proofs.«108606_j12575664243034_1_alg».proof.Proof.RefValue
import proofs.«108606_j12575664243034_1_alg».proof.Proof.HostBias
import proofs.«108606_j12575664243034_1_alg».proof.Proof.HostPrefix
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.ValueP.run (F := Ideal) m ρ)

/-- Both programs end with the specification of the same arguments: the kernel by its tiles, the reference by its
    stages, the spatial feature one term in both. -/
theorem algebraic : Cert.algebraic_KernelIdeal_ReferenceIdeal := by
  intro m ρ m' ρ' _ hagree
  refine ⟨fun c => Cert.Blend.G (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (Cert.KernelIdeal.Blend.spatial m c) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    Cert.KernelIdeal.Blend.run m ρ, ?_⟩
  refine (θ_run Cert.ReferenceIdeal.defs _ _).mono (fun _ h c => ⟨(h c).1.trans ?_, (h c).2⟩)
    (Cert.ReferenceIdeal.ValueP.run (F := Ideal) m' ρ')
  obtain ⟨a0, a1, a2, a3, a4, a5, a6, a7⟩ := hagree c
  show Cert.ReferenceIdeal.ValueP.res_main_v63 m' c = Cert.Blend.G _ _ (Cert.KernelIdeal.Blend.spatial m c) _ _
  rw [Cert.ReferenceIdeal.ReadP.val_main_v63_eq, Cert.ReferenceIdeal.RefValue.result_eq,
    a0, a1, a2, a3, a4, a5, a6, a7,
    show Cert.KernelIdeal.Blend.spatial m c = _ from Cert.KernelIdeal.Blend.spatial_eq m c]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
